-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S1048576 : Shape := ⟨1, ![1048576]⟩
abbrev S512 : Shape := ⟨1, ![512]⟩
abbrev S1 : Shape := ⟨1, ![1]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S131072x32 .f32) (main_arg1 : FVec F S131072x32 .f32) (main_arg2 : IVec S1048576 32) (main_arg3 : IVec S1048576 32) (main_arg4 : IVec S512 32) (main_arg5 : IVec S512 32) (main_arg6 : FVec F S1 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S131072x32 .f32 := Host.absf main_arg1
  let main_cst_0 : FVec F S_ .f32 := constant S_ .f32 0x7F800000#32
  let main_v5 : FVec F S131072x32 .f32 := broadcastInDim S131072x32 ![] bcast_S_S131072x32 main_cst_0
  let main_v6 : IVec S131072x32 1 := cmpf .olt main_v4 main_v5
  let main_c_1 : IVec S_ 1 := constantI S_ 1 1#1
  let main_v7 : IVec S_ 1 := (fun x v => Host.reduce IntOp.andi x v reducesTo_S131072x32_S_d0_1 h_S_) main_v6 main_c_1
  let main_v8 : IVec S_ 1 := andi main_v3 main_v7
  let main_v9 : FVec F S1 .f32 := Host.absf main_arg6
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S131072x32 : Shape := ⟨2, ![131072, 32]⟩
abbrev S1048576 : Shape := ⟨1, ![1048576]⟩
abbrev S512 : Shape := ⟨1, ![512]⟩
abbrev S1 : Shape := ⟨1, ![1]⟩
abbrev S_ : Shape := ⟨0, ![]⟩
abbrev S131072 : Shape := ⟨1, ![131072]⟩
abbrev S1048576x1 : Shape := ⟨2, ![1048576, 1]⟩
abbrev S512x256 : Shape := ⟨2, ![512, 256]⟩
abbrev S512x256x32 : Shape := ⟨3, ![512, 256, 32]⟩
abbrev S16x1x32 : Shape := ⟨3, ![16, 1, 32]⟩
abbrev S32x256x32 : Shape := ⟨3, ![32, 256, 32]⟩
abbrev S32x256 : Shape := ⟨2, ![32, 256]⟩
abbrev S1x1x32 : Shape := ⟨3, ![1, 1, 32]⟩
abbrev S32x256x256 : Shape := ⟨3, ![32, 256, 256]⟩
abbrev S32x256x1 : Shape := ⟨3, ![32, 256, 1]⟩
abbrev S32x1x256 : Shape := ⟨3, ![32, 1, 256]⟩
abbrev S32 : Shape := ⟨1, ![32]⟩

abbrev nBuf : Space → Nat
  | .hbm => 39
  | .vmem => 10
  | .smem => 0
  | _ => 0

abbrev bufTy : (tb : Table) → Fin (tcTables nBuf tb) → BufTy
  | .hbm, ⟨0, _⟩ => ⟨S131072x32, .f32⟩
  | .hbm, ⟨1, _⟩ => ⟨S131072x32, .f32⟩
  | .hbm, ⟨2, _⟩ => ⟨S1048576, .i32⟩
  | .hbm, ⟨3, _⟩ => ⟨S1048576, .i32⟩
  | .hbm, ⟨4, _⟩ => ⟨S512, .i32⟩
  | .hbm, ⟨5, _⟩ => ⟨S512, .i32⟩
  | .hbm, ⟨6, _⟩ => ⟨S1, .f32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S131072, .f32⟩
  | .hbm, ⟨11, _⟩ => ⟨S1048576x1, .i32⟩
  | .hbm, ⟨12, _⟩ => ⟨S131072, .f32⟩
  | .hbm, ⟨13, _⟩ => ⟨S_, .f32⟩
  | .hbm, ⟨14, _⟩ => ⟨S131072, .f32⟩
  | .hbm, ⟨15, _⟩ => ⟨S131072, .f32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S131072, .f32⟩
  | .hbm, ⟨20, _⟩ => ⟨S1048576x1, .i32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S131072, .f32⟩
  | .hbm, ⟨27, _⟩ => ⟨S131072, .f32⟩
  | .hbm, ⟨28, _⟩ => ⟨S512x256, .f32⟩
  | .hbm, ⟨29, _⟩ => ⟨S131072, .f32⟩
  | .hbm, ⟨30, _⟩ => ⟨S131072, .f32⟩
  | .hbm, ⟨31, _⟩ => ⟨S512x256, .f32⟩
  | .hbm, ⟨32, _⟩ => ⟨S512x256x32, .f32⟩
  | .hbm, ⟨33, _⟩ => ⟨S512x256x32, .f32⟩
  | .hbm, ⟨34, _⟩ => ⟨S16x1x32, .f32⟩
  | .hbm, ⟨35, _⟩ => ⟨S512, .f32⟩
  | .hbm, ⟨36, _⟩ => ⟨S512, .i32⟩
  | .hbm, ⟨37, _⟩ => ⟨S512, .f32⟩
  | .hbm, ⟨38, _⟩ => ⟨S512, .f32⟩
  | .local _ .vmem, ⟨0, _⟩ => ⟨S32x256x32, .f32⟩
  | .local _ .vmem, ⟨1, _⟩ => ⟨S32x256x32, .f32⟩
  | .local _ .vmem, ⟨2, _⟩ => ⟨S32x256x32, .f32⟩
  | .local _ .vmem, ⟨3, _⟩ => ⟨S32x256x32, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S1x1x32, .f32⟩
  | .local _ .vmem, ⟨9, _⟩ => ⟨S1x1x32, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  shapeCasts_S1_S_ : S1.ShapeCasts S_
  shapeCasts_S131072_S512x256 : S131072.ShapeCasts S512x256
  shapeCasts_S131072x32_S512x256x32 : S131072x32.ShapeCasts S512x256x32
  inb_S32x256x32_S32x256x32_0_0_0 : ∀ a, (![0, 0, 0] : Fin 3 → Nat) a + S32x256x32.size a ≤ S32x256x32.size a
  h_S32x256x32 : 0 < S32x256x32.numel
  shapeCasts_S32x256x32_S32x256x32 : S32x256x32.ShapeCasts S32x256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  bitsLt_bf16_f32 : FTy.bits .bf16 < FTy.bits .f32
  reduces_S32x256x32_S32x256 : S32x256x32.Reduces [2] S32x256
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  reduces_S32x256x256_S32x256 : S32x256x256.Reduces [2] S32x256
  reduces_S32x256x256_S32x256_2 : S32x256x256.Reduces [1] S32x256
  reduces_S32x256_S32 : S32x256.Reduces [1] S32
  shapeCasts_S32_S1x1x32 : S32.ShapeCasts S1x1x32
  inb_S1x1x32_S1x1x32_0_0_0 : ∀ a, (![0, 0, 0] : Fin 3 → Nat) a + S1x1x32.size a ≤ S1x1x32.size a
  h_S1x1x32 : 0 < S1x1x32.numel
  shapeCasts_S16x1x32_S512 : S16x1x32.ShapeCasts S512
  scatter_S131072_S1048576x1_S1048576_n_0_0_1_wf : ScatterDims.WF S131072 S1048576x1 S1048576 [] [0] [0] 1
  dot_S32x256x32_S32x256x32_S32x256x256_2_2_1_1_0_0_wf : DotDims.WF S32x256x32 S32x256x32 S32x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x32.size a ≤ S512x256x32.size a
  hwx0_0 : ∀ i : grid0.Coords, EltTy.bits .f32 = 32 ∨ (Rect.block (s := S512x256x32) S32x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x32.size a ≤ S512x256x32.size a
  hwx0_1 : ∀ i : grid0.Coords, EltTy.bits .f32 = 32 ∨ (Rect.block (s := S512x256x32) S32x256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S512x256.size a
  hwx0_2 : ∀ i : grid0.Coords, EltTy.bits .f32 = 32 ∨ (Rect.block (s := S512x256) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S512x256.size a
  hwx0_3 : ∀ i : grid0.Coords, EltTy.bits .f32 = 32 ∨ (Rect.block (s := S512x256) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S16x1x32.size a
  hwx0_4 : ∀ i : grid0.Coords, EltTy.bits .f32 = 32 ∨ (Rect.block (s := S16x1x32) S1x1x32.size (cc0_transform_4 i) (hinb0_4 i)).WholeWords (EltTy.packing .f32)

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def dot_S32x256x32_S32x256x32_S32x256x256_2_2_1_1_0_0 : DotDims S32x256x32 S32x256x32 S32x256x256 where
  lhsContracting := [2]
  rhsContracting := [2]
  lhsNonContracting := [1]
  rhsNonContracting := [1]
  lhsBatch := [0]
  rhsBatch := [0]
  wf := dot_S32x256x32_S32x256x32_S32x256x256_2_2_1_1_0_0_wf

abbrev win0_0 : Pipeline.Window sig grid0 :=
  Pipeline.Window.ofSpec (Memref.whole main_v19) S32x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S32x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x32 : Shape := ⟨2, ![131072, 32]⟩
abbrev S1048576 : Shape := ⟨1, ![1048576]⟩
abbrev S512 : Shape := ⟨1, ![512]⟩
abbrev S1 : Shape := ⟨1, ![1]⟩
abbrev S_ : Shape := ⟨0, ![]⟩
abbrev S131072 : Shape := ⟨1, ![131072]⟩
abbrev S1048576x1 : Shape := ⟨2, ![1048576, 1]⟩
abbrev S512x256x32 : Shape := ⟨3, ![512, 256, 32]⟩
abbrev S512x256 : Shape := ⟨2, ![512, 256]⟩
abbrev S512x256x1 : Shape := ⟨3, ![512, 256, 1]⟩
abbrev S512x1x256 : Shape := ⟨3, ![512, 1, 256]⟩
abbrev S512x256x256 : Shape := ⟨3, ![512, 256, 256]⟩
abbrev S512x256x257 : Shape := ⟨3, ![512, 256, 257]⟩
abbrev S512x1 : Shape := ⟨2, ![512, 1]⟩
abbrev S512x257 : Shape := ⟨2, ![512, 257]⟩
abbrev S512x1x257 : Shape := ⟨3, ![512, 1, 257]⟩
abbrev S512x257x257 : Shape := ⟨3, ![512, 257, 257]⟩

abbrev nBuf : Space → Nat
  | .hbm => 69
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S131072x32, .f32⟩
  | .hbm, ⟨2, _⟩ => ⟨S1048576, .i32⟩
  | .hbm, ⟨3, _⟩ => ⟨S1048576, .i32⟩
  | .hbm, ⟨4, _⟩ => ⟨S512, .i32⟩
  | .hbm, ⟨5, _⟩ => ⟨S512, .i32⟩
  | .hbm, ⟨6, _⟩ => ⟨S1, .f32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S131072, .f32⟩
  | .hbm, ⟨11, _⟩ => ⟨S1048576x1, .i32⟩
  | .hbm, ⟨12, _⟩ => ⟨S131072, .f32⟩
  | .hbm, ⟨13, _⟩ => ⟨S_, .f32⟩
  | .hbm, ⟨14, _⟩ => ⟨S131072, .f32⟩
  | .hbm, ⟨15, _⟩ => ⟨S131072, .f32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S131072, .f32⟩
  | .hbm, ⟨20, _⟩ => ⟨S1048576x1, .i32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S512x256x32, .f32⟩
  | .hbm, ⟨27, _⟩ => ⟨S512x256x32, .f32⟩
  | .hbm, ⟨28, _⟩ => ⟨S512x256, .f32⟩
  | .hbm, ⟨29, _⟩ => ⟨S512x256, .f32⟩
  | .hbm, ⟨30, _⟩ => ⟨S512x256x32, .f32⟩
  | .hbm, ⟨31, _⟩ => ⟨S_, .f32⟩
  | .hbm, ⟨32, _⟩ => ⟨S512x256, .f32⟩
  | .hbm, ⟨33, _⟩ => ⟨S512x256x32, .f32⟩
  | .hbm, ⟨34, _⟩ => ⟨S_, .f32⟩
  | .hbm, ⟨35, _⟩ => ⟨S512x256, .f32⟩
  | .hbm, ⟨36, _⟩ => ⟨S512x256x1, .f32⟩
  | .hbm, ⟨37, _⟩ => ⟨S512x1x256, .f32⟩
  | .hbm, ⟨38, _⟩ => ⟨S512x256x256, .f32⟩
  | .hbm, ⟨39, _⟩ => ⟨S512x256x256, .f32⟩
  | .hbm, ⟨40, _⟩ => ⟨S512x256x256, .f32⟩
  | .hbm, ⟨41, _⟩ => ⟨S512x256x256, .f32⟩
  | .hbm, ⟨42, _⟩ => ⟨S_, .f32⟩
  | .hbm, ⟨43, _⟩ => ⟨S512x256x256, .f32⟩
  | .hbm, ⟨44, _⟩ => ⟨S512x256x256, .f32⟩
  | .hbm, ⟨45, _⟩ => ⟨S512x256x256, .f32⟩
  | .hbm, ⟨46, _⟩ => ⟨S512x256, .f32⟩
  | .hbm, ⟨47, _⟩ => ⟨S512x256, .f32⟩
  | .hbm, ⟨48, _⟩ => ⟨S512x256x1, .f32⟩
  | .hbm, ⟨49, _⟩ => ⟨S512x256x257, .f32⟩
  | .hbm, ⟨50, _⟩ => ⟨S512x256, .f32⟩
  | .hbm, ⟨51, _⟩ => ⟨S512x256, .f32⟩
  | .hbm, ⟨52, _⟩ => ⟨S_, .f32⟩
  | .hbm, ⟨53, _⟩ => ⟨S512x1, .f32⟩
  | .hbm, ⟨54, _⟩ => ⟨S512x257, .f32⟩
  | .hbm, ⟨55, _⟩ => ⟨S512x1x257, .f32⟩
  | .hbm, ⟨56, _⟩ => ⟨S512x257x257, .f32⟩
  | .hbm, ⟨57, _⟩ => ⟨S_, .f32⟩
  | .hbm, ⟨58, _⟩ => ⟨S512x257, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512x257, .f32⟩
  | .hbm, ⟨63, _⟩ => ⟨S_, .f32⟩
  | .hbm, ⟨64, _⟩ => ⟨S512, .f32⟩
  | .hbm, ⟨65, _⟩ => ⟨S512, .i32⟩
  | .hbm, ⟨66, _⟩ => ⟨S512, .f32⟩
  | .hbm, ⟨67, _⟩ => ⟨S512, .f32⟩
  | .hbm, ⟨68, _⟩ => ⟨S512, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  shapeCasts_S1_S_ : S1.ShapeCasts S_
  shapeCasts_S131072x32_S512x256x32 : S131072x32.ShapeCasts S512x256x32
  shapeCasts_S131072_S512x256 : S131072.ShapeCasts S512x256
  reducesTo_S512x256x32_S512x256_d2 : S512x256x32.ReducesTo [2] S512x256
  h_S_ : 0 < S_.numel
  bcast_S512x256_S512x256x1_0_1 : S512x256.BroadcastsInDim S512x256x1 (![0, 1] : Fin 2 → Fin S512x256x1.rank)
  bcast_S512x256_S512x1x256_0_2 : S512x256.BroadcastsInDim S512x1x256 (![0, 2] : Fin 2 → Fin S512x1x256.rank)
  bcast_S512x256x1_S512x256x256_0_1_2 : S512x256x1.BroadcastsInDim S512x256x256 (![0, 1, 2] : Fin 3 → Fin S512x256x256.rank)
  bcast_S512x1x256_S512x256x256_0_1_2 : S512x1x256.BroadcastsInDim S512x256x256 (![0, 1, 2] : Fin 3 → Fin S512x256x256.rank)
  bcast_S_S512x256x256 : S_.BroadcastsInDim S512x256x256 (![] : Fin 0 → Fin S512x256x256.rank)
  bcast_S_S512x256 : S_.BroadcastsInDim S512x256 (![] : Fin 0 → Fin S512x256.rank)
  concatenates_S512x256x256_S512x256x1_S512x256x257_d2 : Shape.Concatenates [S512x256x256, S512x256x1] S512x256x257 2
  bcast_S_S512x1 : S_.BroadcastsInDim S512x1 (![] : Fin 0 → Fin S512x1.rank)
  concatenates_S512x256_S512x1_S512x257_d1 : Shape.Concatenates [S512x256, S512x1] S512x257 1
  bcast_S512x257_S512x1x257_0_2 : S512x257.BroadcastsInDim S512x1x257 (![0, 2] : Fin 2 → Fin S512x1x257.rank)
  concatenates_S512x256x257_S512x1x257_S512x257x257_d1 : Shape.Concatenates [S512x256x257, S512x1x257] S512x257x257 1
  reducesTo_S512x257x257_S512x257_d1 : S512x257x257.ReducesTo [1] S512x257
  reducesTo_S512x257_S512_d1 : S512x257.ReducesTo [1] S512
  reducesTo_S512x257x257_S512x257_d2 : S512x257x257.ReducesTo [2] S512x257
  scatter_S131072_S1048576x1_S1048576_n_0_0_1_wf : ScatterDims.WF S131072 S1048576x1 S1048576 [] [0] [0] 1
  dot_S512x256x32_S512x256x32_S512x256x256_2_2_1_1_0_0_wf : DotDims.WF S512x256x32 S512x256x32 S512x256x256 [2] [2] [1] [1] [0] [0]

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def dot_S512x256x32_S512x256x32_S512x256x256_2_2_1_1_0_0 : DotDims S512x256x32 S512x256x32 S512x256x256 where
  lhsContracting := [2]
  rhsContracting := [2]
  lhsNonContracting := [1]
  rhsNonContracting := [1]
  lhsBatch := [0]
  rhsBatch := [0]
  wf := dot_S512x256x32_S512x256x32_S512x256x256_2_2_1_1_0_0_wf

class Facts : Prop extends Facts₀ where

variable [Facts]
-- ==== Proof.LibBordered.lean ====
/-
  A square table with one extra row and one extra column.

  Let `D` be an `(N+1) × (N+1)` table whose top-left `N × N` corner is `d`, whose last column (without the corner) is
  `p`, whose last row (without the corner) is `q`, and whose corner is `z`.  For a commutative and associative
  operation `op` (a minimum, in the application) folded from `top`, the sum of the column folds of `D` plus the sum of
  its row folds can be computed without ever building `D`: every column fold of `D` over the first `N` columns is
  `op` of the column fold of `d` with the entry of `q`, the last column folds `p` together with the corner, and the
  same holds for rows.  Only commutativity and associativity of `op` and of `+` are used, so the identity holds in
  any commutative monoid — in particular on the extended reals, infinities included.
-/
import Mathlib.Algebra.BigOperators.Fin
import Mathlib.Data.Finset.Fold
import Mathlib.Data.Fintype.Basic

namespace Cert.Bordered

open Finset

variable {α : Type*}

/-- A fold of a commutative, associative operation over `Fin (n + 1)` is the operation applied to the last entry and
    the fold over the first `n` entries. -/
theorem fold_univ_castSucc (op : α → α → α) [Std.Commutative op] [Std.Associative op] (b : α) {n : ℕ}
    (f : Fin (n + 1) → α) :
    (univ : Finset (Fin (n + 1))).fold op b f
      = op (f (Fin.last n)) ((univ : Finset (Fin n)).fold op b fun k => f k.castSucc) := by
  rw [Fin.univ_castSuccEmb, Finset.fold_cons, Finset.fold_map]
  rfl

variable [AddCommMonoid α]

/-- The value computed from the pieces: column folds of `d` met with `q`, summed, plus the fold of `p` met with the
    corner; and the same with rows and columns exchanged. -/
def splitValue (op : α → α → α) [Std.Commutative op] [Std.Associative op] (top z : α) {N : ℕ} (d : Fin N → Fin N → α) (p q : Fin N → α) : α :=
  ((∑ m, op (univ.fold op top fun n => d n m) (q m)) + op (univ.fold op top p) z)
    + ((∑ n, op (univ.fold op top fun m => d n m) (p n)) + op (univ.fold op top q) z)

/-- The value computed from the bordered table: the sum of its column folds plus the sum of its row folds. -/
def borderedValue (op : α → α → α) [Std.Commutative op] [Std.Associative op] (top : α) {N : ℕ} (D : Fin (N + 1) → Fin (N + 1) → α) : α :=
  (∑ m, univ.fold op top fun n => D n m) + (∑ n, univ.fold op top fun m => D n m)

/-- The two values agree. -/
theorem bordered_eq_split (op : α → α → α) [Std.Commutative op] [Std.Associative op] (top z : α) {N : ℕ}
    (D : Fin (N + 1) → Fin (N + 1) → α) (d : Fin N → Fin N → α) (p q : Fin N → α)
    (h11 : ∀ n m, D n.castSucc m.castSucc = d n m) (h12 : ∀ n, D n.castSucc (Fin.last N) = p n)
    (h21 : ∀ m, D (Fin.last N) m.castSucc = q m) (h22 : D (Fin.last N) (Fin.last N) = z) :
    borderedValue op top D = splitValue op top z d p q := by
  unfold borderedValue splitValue
  rw [Fin.sum_univ_castSucc, Fin.sum_univ_castSucc]
  congr 1
  · congr 1
    · refine Finset.sum_congr rfl fun m _ => ?_
      rw [fold_univ_castSucc, h21, Std.Commutative.comm (op := op)]
      exact congrArg (fun g => op (univ.fold op top g) (q m)) (funext fun n => h11 n m)
    · rw [fold_univ_castSucc, h22, Std.Commutative.comm (op := op)]
      exact congrArg (fun g => op (univ.fold op top g) z) (funext fun n => h12 n)
  · congr 1
    · refine Finset.sum_congr rfl fun n _ => ?_
      rw [fold_univ_castSucc, h12, Std.Commutative.comm (op := op)]
      exact congrArg (fun g => op (univ.fold op top g) (p n)) (funext fun m => h11 n m)
    · rw [fold_univ_castSucc, h22, Std.Commutative.comm (op := op)]
      exact congrArg (fun g => op (univ.fold op top g) z) (funext fun m => h21 m)

end Cert.Bordered
-- ==== Proof.GraphCost.lean ====
/-
  The matching cost of one pair of graphs, as a function of the pair's data.

  For node features `X, Y : N × D`, the squared distance of row `n` of `X` to row `m` of `Y` is written the way both
  programs compute it, `(|X n|² + |Y m|²) − two · ⟨X n, Y m⟩` (`two` stands for the literal 2; it is never evaluated).
  With insertion/deletion prices `P, Q : N`, the cost is the value `Cert.Bordered.splitValue` of the distance table
  with `P` as the extra column, `Q` as the extra row and `z` (the literal 0) in the corner, under `min` folded from
  `top` (the literal +∞): the sum over columns of the smaller of the column minimum and the column's price, plus the
  smaller of the cheapest row price and `z`; and the same with rows and columns exchanged.
-/
import Idealize.ShloMosaic.PureOps.Ideal
import proofs.«134899_j3994319585319_1_alg».proof.Proof.LibBordered

namespace Cert.GraphCost

/-- Node `n` of graph `b` in the flat numbering of all 512 · 256 nodes. -/
abbrev node (b : Fin 512) (n : Fin 256) : Fin 131072 :=
  ⟨b.val * 256 + n.val, by have := b.isLt; have := n.isLt; omega⟩

/-- Squared distance of row `n` of `X` to row `m` of `Y`, by the polarisation formula. -/
noncomputable def sqDist {N D : ℕ} (two : EReal) (X Y : Fin N → Fin D → EReal) (n m : Fin N) : EReal :=
  ((∑ k, X n k * X n k) + (∑ k, Y m k * Y m k)) - two * (∑ k, X n k * Y m k)

/-- The cost of one pair of graphs. -/
noncomputable def cost {N D : ℕ} (top z two : EReal) (X Y : Fin N → Fin D → EReal) (P Q : Fin N → EReal) : EReal :=
  Cert.Bordered.splitValue min top z (sqDist two X Y) P Q

end Cert.GraphCost
-- ==== Proof.LibAxisFolds.lean ====
/-
  A reduction over ONE axis of a vector of extended reals, read at a result index as a fold or a sum
  over `Fin n` of a function the caller names: the minimum-reductions of a kernel
  (`vector.multi_reduction <minimumf>`) and of a host program (`stablehlo.reduce` with a minimum body)
  as `Finset.fold min` from the initial value, and a kernel's `<add>` reduction as a `∑`. The extent
  `n` is a variable equated with the reduced axis's size, so the statements apply unchanged at any
  literal shape: the index set of the fold or sum is `Fin n` for the literal `n`.
-/
import Idealize.ShloMosaic.PureOps.Ideal.Laws

namespace Cert.LibAxisFolds

open Idealize.ShloMosaic

variable {s t : Shape} {a : Fin s.rank} {φ : FTy}

/-- A host minimum-reduction over one axis, at `j`: the fold of `min` from the initial value's element
    over the reduced axis's coordinates, each read as the caller's `f`. -/
theorem hostReduce_min_single {u : Shape} (x : FVec Ideal s φ) (init : u.Idx → Ideal φ) (h' : s.ReducesTo [a] t)
    (h : s.Reduces [a] t) (hu : 0 < u.numel) (j : t.Idx) (n : ℕ) (hn : s.size a = n) (f : Fin n → EReal)
    (hf : ∀ k : Fin (s.size a), x (h.lift j k) = f (k.cast hn)) :
    Host.reduce FloatOps.minimumf x init h' hu j
      = (Finset.univ : Finset (Fin n)).fold min (init (Shape.Idx.first hu)) f := by
  subst hn
  rw [Host.reduce_eq_fold_single FloatOps.minimumf x init h' h hu j]
  have e : (x ∘ h.lift j) = f := funext fun k => hf k
  rw [e]; rfl

/-- A kernel's minimum-reduction over one axis, at `j`: the fold of `min` from the accumulator's value. -/
theorem multiReduction_min_single (src : FVec Ideal s φ) (acc : BitVec φ.bits) (h : s.Reduces [a] t)
    (hφ : FKind.Formats φ) (hacc : acc = FKind.minimumf.neutral φ hφ) (j : t.Idx) (n : ℕ) (hn : s.size a = n)
    (f : Fin n → EReal) (hf : ∀ k : Fin (s.size a), src (h.lift j k) = f (k.cast hn)) :
    multiReduction .minimumf [a] t src acc h hφ hacc j
      = (Finset.univ : Finset (Fin n)).fold min (Ideal.ofBits φ acc) f := by
  subst hn
  classical
  rw [multiReduction_minimumf_eq_fold, h.fold_filter_drop_single]
  have e : (src ∘ h.lift j) = f := funext fun k => hf k
  rw [e]; rfl

/-- A kernel's sum over one axis, at `j`: the sum of the caller's `f` over the axis's coordinates. -/
theorem multiReduction_add_single (src : FVec Ideal s φ) (acc : BitVec φ.bits) (h : s.Reduces [a] t)
    (hφ : FKind.Formats φ) (hacc : acc = FKind.add.neutral φ hφ) (j : t.Idx) (n : ℕ) (hn : s.size a = n)
    (f : Fin n → EReal) (hf : ∀ k : Fin (s.size a), src (h.lift j k) = f (k.cast hn)) :
    multiReduction .add [a] t src acc h hφ hacc j = ∑ k : Fin n, f k := by
  subst hn
  rw [Ideal.multiReduction_add_single]
  exact Finset.sum_congr rfl fun k _ => hf k

end Cert.LibAxisFolds
-- ==== Proof.BlockCost.lean ====
/-
  What one grid step of the kernel writes, read index by index.

  A step loads 32 graphs' worth of data: `x0, x1 : 32 × 256 × 32` (node features of the two graphs of each pair) and
  `x2, x3 : 32 × 256` (insertion/deletion prices of the two graphs), and stores a `1 × 1 × 32` block.  Entry `j` of the
  stored block is the matching cost (`Cert.GraphCost.cost`) of pair `j` of the step: the body forms the 256 × 256
  table of squared distances by the polarisation formula (row sums of squares by a lane sum, the inner products by one
  batched matrix product into a zero accumulator; the change to the 16-bit format before the product is the identity
  on extended reals), takes its column and row minima, meets them with the prices, sums, and adds the smaller of the
  cheapest price and zero — which is exactly `Cert.Bordered.splitValue` of the table.
-/
import proofs.«134899_j3994319585319_1_alg».proof.Proof.Gen.KernelIdeal.Frame
import proofs.«134899_j3994319585319_1_alg».proof.Proof.GraphCost
import proofs.«134899_j3994319585319_1_alg».proof.Proof.LibAxisFolds
import Idealize.ShloMosaic.Lib.ValueIdx
import Idealize.ShloMosaic.Lib.Pipeline.Value
import Idealize.ShloMosaic.PureOps.Ideal.Laws

noncomputable section

namespace Cert.KernelIdeal.BlockCost

open Cert.KernelIdeal Cert.KernelIdeal.Gen Idealize.ShloMosaic Idealize.ShloMosaic.ValueIdx Cert.GraphCost

/-! ## Coordinates of an index with one axis re-inserted -/

theorem lift_last (h : S32x256x32.Reduces [2] S32x256) (j : Fin 32) (n : Fin 256) (k : Fin 32) :
    h.lift (ix2 j n) k = ix3 j n k :=
  funext fun a => Fin.ext (by match a with | ⟨0, _⟩ => rfl | ⟨1, _⟩ => rfl | ⟨2, _⟩ => rfl)

theorem lift_cols (h : S32x256x256.Reduces [2] S32x256) (j : Fin 32) (n : Fin 256) (k : Fin 256) :
    h.lift (ix2 j n) k = ix3 j n k :=
  funext fun a => Fin.ext (by match a with | ⟨0, _⟩ => rfl | ⟨1, _⟩ => rfl | ⟨2, _⟩ => rfl)

theorem lift_rows (h : S32x256x256.Reduces [1] S32x256) (j : Fin 32) (m : Fin 256) (k : Fin 256) :
    h.lift (ix2 j m) k = ix3 j k m :=
  funext fun a => Fin.ext (by match a with | ⟨0, _⟩ => rfl | ⟨1, _⟩ => rfl | ⟨2, _⟩ => rfl)

theorem lift_flat (h : S32x256.Reduces [1] S32) (j : Fin 32) (k : Fin 256) :
    h.lift (ix1 j) k = ix2 j k :=
  funext fun a => Fin.ext (by match a with | ⟨0, _⟩ => rfl | ⟨1, _⟩ => rfl)

/-! ## The layout steps of the distance table -/

/-- A per-row quantity `v (j, n)`, given a trailing unit axis and repeated along it, reads `v (j, n)` at `(j, n, m)`. -/
theorem along_cols (v : FVec Ideal S32x256 .f32) (h1 : S32x256.ShapeCasts S32x256x1) (h2 : S32x256x1.Broadcasts S32x256x256)
    (j : Fin 32) (n m : Fin 256) :
    broadcastTo S32x256x256 (shapeCast S32x256x1 v h1) h2 (ix3 j n m) = v (ix2 j n) :=
  (broadcastTo_apply _ h2 (ix3 j n m) (ix3 j n (0 : Fin 1)) (fun a => by
    match a with
    | ⟨0, _⟩ => show j.val = if (32 : Nat) = 1 then 0 else j.val; rw [if_neg (by decide)]
    | ⟨1, _⟩ => show n.val = if (256 : Nat) = 1 then 0 else n.val; rw [if_neg (by decide)]
    | ⟨2, _⟩ => show (0 : Nat) = if (1 : Nat) = 1 then 0 else m.val; rw [if_pos rfl])).trans
  (shapeCast_apply v h1 (ix3 j n (0 : Fin 1)) (ix2 j n) (by
    rw [Shape.rowMajor_val_two, Shape.rowMajor_val_three]
    show j.val * 256 + n.val = (j.val * 256 + n.val) * 1 + 0; omega))

/-- A per-column quantity `v (j, m)`, given a middle unit axis and repeated along it, reads `v (j, m)` at `(j, n, m)`. -/
theorem along_rows (v : FVec Ideal S32x256 .f32) (h1 : S32x256.ShapeCasts S32x1x256) (h2 : S32x1x256.Broadcasts S32x256x256)
    (j : Fin 32) (n m : Fin 256) :
    broadcastTo S32x256x256 (shapeCast S32x1x256 v h1) h2 (ix3 j n m) = v (ix2 j m) :=
  (broadcastTo_apply _ h2 (ix3 j n m) (ix3 j (0 : Fin 1) m) (fun a => by
    match a with
    | ⟨0, _⟩ => show j.val = if (32 : Nat) = 1 then 0 else j.val; rw [if_neg (by decide)]
    | ⟨1, _⟩ => show (0 : Nat) = if (1 : Nat) = 1 then 0 else n.val; rw [if_pos rfl]
    | ⟨2, _⟩ => show m.val = if (256 : Nat) = 1 then 0 else m.val; rw [if_neg (by decide)])).trans
  (shapeCast_apply v h1 (ix3 j (0 : Fin 1) m) (ix2 j m) (by
    rw [Shape.rowMajor_val_two, Shape.rowMajor_val_three]
    show j.val * 256 + m.val = (j.val * 1 + 0) * 256 + m.val; omega))

/-- The sum of squares along the feature axis. -/
theorem sumsq_apply (x : FVec Ideal S32x256x32 .f32) (h : S32x256x32.Reduces [2] S32x256) (hφ : FKind.Formats .f32)
    (hacc : (0x00000000#32 : BitVec 32) = FKind.add.neutral .f32 hφ) (j : Fin 32) (n : Fin 256) :
    multiReduction .add [2] S32x256 (mulf x x) 0x00000000#32 h hφ hacc (ix2 j n) = ∑ k : Fin 32, x (ix3 j n k) * x (ix3 j n k) :=
  Cert.LibAxisFolds.multiReduction_add_single _ _ h hφ hacc (ix2 j n) 32 rfl _ (fun k => by
    have e : h.lift (ix2 j n) k = ix3 j n k := lift_last h j n k
    rw [e]; rfl)

/-! ## The batched inner products -/

theorem lhs_axis0 (i : S32x256x256.Idx) (q : dot_S32x256x32_S32x256x32_S32x256x256_2_2_1_1_0_0.contr.Idx) :
    (dot_S32x256x32_S32x256x32_S32x256x256_2_2_1_1_0_0.lhsIdx i q 0).val = (i 0).val := by
  unfold DotDims.lhsIdx
  rw [dif_pos (show (0 : Fin S32x256x32.rank) ∈ dot_S32x256x32_S32x256x32_S32x256x256_2_2_1_1_0_0.lhsBatch by decide)]
  rfl
theorem lhs_axis1 (i : S32x256x256.Idx) (q : dot_S32x256x32_S32x256x32_S32x256x256_2_2_1_1_0_0.contr.Idx) :
    (dot_S32x256x32_S32x256x32_S32x256x256_2_2_1_1_0_0.lhsIdx i q 1).val = (i 1).val := by
  unfold DotDims.lhsIdx
  rw [dif_neg (show ¬(1 : Fin S32x256x32.rank) ∈ dot_S32x256x32_S32x256x32_S32x256x256_2_2_1_1_0_0.lhsBatch by decide), dif_pos (show (1 : Fin S32x256x32.rank) ∈ dot_S32x256x32_S32x256x32_S32x256x256_2_2_1_1_0_0.lhsNonContracting by decide)]
  rfl
theorem lhs_axis2 (i : S32x256x256.Idx) (q : dot_S32x256x32_S32x256x32_S32x256x256_2_2_1_1_0_0.contr.Idx) :
    (dot_S32x256x32_S32x256x32_S32x256x256_2_2_1_1_0_0.lhsIdx i q 2).val = (q ⟨0, by decide⟩).val :=
  dot_S32x256x32_S32x256x32_S32x256x256_2_2_1_1_0_0.lhsIdx_val_of_single rfl i q
theorem rhs_axis0 (i : S32x256x256.Idx) (q : dot_S32x256x32_S32x256x32_S32x256x256_2_2_1_1_0_0.contr.Idx) :
    (dot_S32x256x32_S32x256x32_S32x256x256_2_2_1_1_0_0.rhsIdx i q 0).val = (i 0).val := by
  unfold DotDims.rhsIdx
  rw [dif_pos (show (0 : Fin S32x256x32.rank) ∈ dot_S32x256x32_S32x256x32_S32x256x256_2_2_1_1_0_0.rhsBatch by decide)]
  rfl
theorem rhs_axis1 (i : S32x256x256.Idx) (q : dot_S32x256x32_S32x256x32_S32x256x256_2_2_1_1_0_0.contr.Idx) :
    (dot_S32x256x32_S32x256x32_S32x256x256_2_2_1_1_0_0.rhsIdx i q 1).val = (i 2).val := by
  unfold DotDims.rhsIdx
  rw [dif_neg (show ¬(1 : Fin S32x256x32.rank) ∈ dot_S32x256x32_S32x256x32_S32x256x256_2_2_1_1_0_0.rhsBatch by decide), dif_pos (show (1 : Fin S32x256x32.rank) ∈ dot_S32x256x32_S32x256x32_S32x256x256_2_2_1_1_0_0.rhsNonContracting by decide)]
  rfl
theorem rhs_axis2 (i : S32x256x256.Idx) (q : dot_S32x256x32_S32x256x32_S32x256x256_2_2_1_1_0_0.contr.Idx) :
    (dot_S32x256x32_S32x256x32_S32x256x256_2_2_1_1_0_0.rhsIdx i q 2).val = (q ⟨0, by decide⟩).val :=
  dot_S32x256x32_S32x256x32_S32x256x256_2_2_1_1_0_0.rhsIdx_val_of_single rfl i q

/-- The batched product into the zero accumulator, at `(j, n, m)`: the inner product of row `n` of the left operand
    with row `m` of the right operand, both of batch entry `j`. -/
theorem dot_apply (l r : FVec Ideal S32x256x32 .bf16) (j : Fin 32) (n m : Fin 256) :
    matmul dot_S32x256x32_S32x256x32_S32x256x256_2_2_1_1_0_0 none l r (constant S32x256x256 .f32 0x00000000#32) (ix3 j n m)
      = ∑ k : Fin 32, l (ix3 j n k) * r (ix3 j m k) := by
  simp only [matmul]
  rw [Ideal.matmul_constant_zero_apply, ← Equiv.sum_comp (contrEquiv1 dot_S32x256x32_S32x256x32_S32x256x256_2_2_1_1_0_0 32 rfl rfl).symm]
  refine Finset.sum_congr rfl fun k _ => ?_
  have hk := contrEquiv1_symm_val dot_S32x256x32_S32x256x32_S32x256x256_2_2_1_1_0_0 32 rfl rfl k
  have el : dot_S32x256x32_S32x256x32_S32x256x256_2_2_1_1_0_0.lhsIdx (ix3 j n m) ((contrEquiv1 dot_S32x256x32_S32x256x32_S32x256x256_2_2_1_1_0_0 32 rfl rfl).symm k) = ix3 j n k := funext fun a => Fin.ext (by
    match a with
    | ⟨0, _⟩ => exact lhs_axis0 _ _
    | ⟨1, _⟩ => exact lhs_axis1 _ _
    | ⟨2, _⟩ => exact (lhs_axis2 _ _).trans hk)
  have er : dot_S32x256x32_S32x256x32_S32x256x256_2_2_1_1_0_0.rhsIdx (ix3 j n m) ((contrEquiv1 dot_S32x256x32_S32x256x32_S32x256x256_2_2_1_1_0_0 32 rfl rfl).symm k) = ix3 j m k := funext fun a => Fin.ext (by
    match a with
    | ⟨0, _⟩ => exact rhs_axis0 _ _
    | ⟨1, _⟩ => exact rhs_axis1 _ _
    | ⟨2, _⟩ => exact (rhs_axis2 _ _).trans hk)
  rw [el, er]

/-! ## The minima and the sums over one axis -/

/-- The minimum of row `n` of a table (over its columns). -/
theorem min_over_cols (T : FVec Ideal S32x256x256 .f32) (h : S32x256x256.Reduces [2] S32x256) (hφ : FKind.Formats .f32)
    (hacc : (0x7F800000#32 : BitVec 32) = FKind.minimumf.neutral .f32 hφ) (j : Fin 32) (n : Fin 256) :
    multiReduction .minimumf [2] S32x256 T 0x7F800000#32 h hφ hacc (ix2 j n)
      = Finset.univ.fold min (Ideal.ofBits .f32 0x7F800000#32) (fun m : Fin 256 => T (ix3 j n m)) :=
  Cert.LibAxisFolds.multiReduction_min_single T _ h hφ hacc (ix2 j n) 256 rfl _ (fun k => by
    have e : h.lift (ix2 j n) k = ix3 j n k := lift_cols h j n k
    rw [e]; rfl)

/-- The minimum of column `m` of a table (over its rows). -/
theorem min_over_rows (T : FVec Ideal S32x256x256 .f32) (h : S32x256x256.Reduces [1] S32x256) (hφ : FKind.Formats .f32)
    (hacc : (0x7F800000#32 : BitVec 32) = FKind.minimumf.neutral .f32 hφ) (j : Fin 32) (m : Fin 256) :
    multiReduction .minimumf [1] S32x256 T 0x7F800000#32 h hφ hacc (ix2 j m)
      = Finset.univ.fold min (Ideal.ofBits .f32 0x7F800000#32) (fun n : Fin 256 => T (ix3 j n m)) :=
  Cert.LibAxisFolds.multiReduction_min_single T _ h hφ hacc (ix2 j m) 256 rfl _ (fun k => by
    have e : h.lift (ix2 j m) k = ix3 j k m := lift_rows h j m k
    rw [e]; rfl)

/-- The minimum of a price vector. -/
theorem min_over_nodes (v : FVec Ideal S32x256 .f32) (h : S32x256.Reduces [1] S32) (hφ : FKind.Formats .f32)
    (hacc : (0x7F800000#32 : BitVec 32) = FKind.minimumf.neutral .f32 hφ) (j : Fin 32) :
    multiReduction .minimumf [1] S32 v 0x7F800000#32 h hφ hacc (ix1 j)
      = Finset.univ.fold min (Ideal.ofBits .f32 0x7F800000#32) (fun k : Fin 256 => v (ix2 j k)) :=
  Cert.LibAxisFolds.multiReduction_min_single v _ h hφ hacc (ix1 j) 256 rfl _ (fun k => by
    have e : h.lift (ix1 j) k = ix2 j k := lift_flat h j k
    rw [e]; rfl)

/-- The sum of a per-node quantity over the nodes of a graph. -/
theorem sum_over_nodes (v : FVec Ideal S32x256 .f32) (h : S32x256.Reduces [1] S32) (hφ : FKind.Formats .f32)
    (hacc : (0x00000000#32 : BitVec 32) = FKind.add.neutral .f32 hφ) (j : Fin 32) :
    multiReduction .add [1] S32 v 0x00000000#32 h hφ hacc (ix1 j) = ∑ k : Fin 256, v (ix2 j k) :=
  Cert.LibAxisFolds.multiReduction_add_single v _ h hφ hacc (ix1 j) 256 rfl _ (fun k => by
    have e : h.lift (ix1 j) k = ix2 j k := lift_flat h j k
    rw [e]; rfl)

/-! ## The body's values -/

/-- The table of squared distances the body forms, at `(j, n, m)`. -/
theorem table_apply (x0 x1 : Vec Ideal S32x256x32 .f32) (j : Fin 32) (n m : Fin 256) :
    k0_pay4 x0 x1 (ix3 j n m)
      = sqDist (Ideal.ofBits .f32 0x40000000#32) (fun n k => x0 (ix3 j n k)) (fun m k => x1 (ix3 j m k)) n m := by
  unfold k0_pay4 sqDist
  dsimp only
  simp only [shapeCast_self]
  rw [subf_apply, addf_apply, mulf_apply, broadcast_apply, along_cols, along_rows]
  exact congrArg₂ (· - ·) (congrArg₂ (· + ·) (sumsq_apply x0 _ _ _ j n) (sumsq_apply x1 _ _ _ j m))
    (congrArg (_ * ·) (dot_apply _ _ j n m))

/-- The first half of an entry: every column's minimum met with the second graph's price of that column, summed, plus
    the cheapest first-graph price met with zero. -/
theorem colside_apply (x0 x1 : Vec Ideal S32x256x32 .f32) (x2 x3 : Vec Ideal S32x256 .f32) (j : Fin 32) :
    k0_pay5 x0 x1 x2 x3 (ix1 j)
      = (∑ m : Fin 256, min (Finset.univ.fold min (Ideal.ofBits .f32 0x7F800000#32) fun n : Fin 256 =>
            sqDist (Ideal.ofBits .f32 0x40000000#32) (fun n k => x0 (ix3 j n k)) (fun m k => x1 (ix3 j m k)) n m) (x3 (ix2 j m)))
        + min (Finset.univ.fold min (Ideal.ofBits .f32 0x7F800000#32) fun n : Fin 256 => x2 (ix2 j n)) (Ideal.ofBits .f32 0x00000000#32) := by
  unfold k0_pay5 k0_pay2 k0_pay3
  dsimp only
  simp only [shapeCast_self]
  rw [addf_apply]
  refine congrArg₂ (· + ·) ?_ ?_
  · refine (sum_over_nodes _ _ _ _ j).trans (Finset.sum_congr rfl fun m _ => ?_)
    rw [minimumf_apply]
    refine congrArg₂ min ((min_over_rows _ _ _ _ j m).trans ?_) rfl
    exact congrArg (fun g => Finset.fold min _ g Finset.univ) (funext fun n => table_apply x0 x1 j n m)
  · rw [minimumf_apply, broadcast_apply]
    exact congrArg₂ min (min_over_nodes _ _ _ _ j) rfl

/-- The second half: every row's minimum met with the first graph's price of that row, summed, plus the cheapest
    second-graph price met with zero. -/
theorem rowside_apply (x0 x1 : Vec Ideal S32x256x32 .f32) (x2 x3 : Vec Ideal S32x256 .f32) (j : Fin 32) :
    k0_pay6 x0 x1 x2 x3 (ix1 j)
      = (∑ n : Fin 256, min (Finset.univ.fold min (Ideal.ofBits .f32 0x7F800000#32) fun m : Fin 256 =>
            sqDist (Ideal.ofBits .f32 0x40000000#32) (fun n k => x0 (ix3 j n k)) (fun m k => x1 (ix3 j m k)) n m) (x2 (ix2 j n)))
        + min (Finset.univ.fold min (Ideal.ofBits .f32 0x7F800000#32) fun m : Fin 256 => x3 (ix2 j m)) (Ideal.ofBits .f32 0x00000000#32) := by
  unfold k0_pay6 k0_pay2 k0_pay3
  dsimp only
  simp only [shapeCast_self]
  rw [addf_apply]
  refine congrArg₂ (· + ·) ?_ ?_
  · refine (sum_over_nodes _ _ _ _ j).trans (Finset.sum_congr rfl fun n _ => ?_)
    rw [minimumf_apply]
    refine congrArg₂ min ((min_over_cols _ _ _ _ j n).trans ?_) rfl
    exact congrArg (fun g => Finset.fold min _ g Finset.univ) (funext fun m => table_apply x0 x1 j n m)
  · rw [minimumf_apply, broadcast_apply]
    exact congrArg₂ min (min_over_nodes _ _ _ _ j) rfl

/-- The stored vector: the two halves added, laid out as `1 × 1 × 32`. -/
theorem stored_apply (a b : FVec Ideal S32 .f32) (j : Fin 32) :
    k0_pay1 a b (ix3 (0 : Fin 1) (0 : Fin 1) j) = a (ix1 j) + b (ix1 j) := by
  unfold k0_pay1
  refine (shapeCast_apply _ _ (ix3 (0 : Fin 1) (0 : Fin 1) j) (ix1 j) (by
    rw [Shape.rowMajor_val_one, Shape.rowMajor_val_three]
    show j.val = (0 * 1 + 0) * 32 + j.val; omega)).trans ?_
  rfl

theorem zeros3 : (![0, 0, 0] : Fin 3 → Nat) = fun _ => 0 := funext fun a => by fin_cases a <;> rfl
theorem zeros2 : (![0, 0] : Fin 2 → Nat) = fun _ => 0 := funext fun a => by fin_cases a <;> rfl

/-- ENTRY `j` OF THE BLOCK A STEP STORES is the matching cost of pair `j` of the step's data. -/
theorem block_apply (x0 x1 : Vec Ideal S32x256x32 .f32) (x2 x3 : Vec Ideal S32x256 .f32) (j : Fin 32) :
    out0_4 x0 x1 x2 x3 (ix3 (0 : Fin 1) (0 : Fin 1) j)
      = cost (Ideal.ofBits .f32 0x7F800000#32) (Ideal.ofBits .f32 0x00000000#32) (Ideal.ofBits .f32 0x40000000#32)
          (fun n k => x0 (ix3 j n k)) (fun m k => x1 (ix3 j m k)) (fun n => x2 (ix2 j n)) (fun m => x3 (ix2 j m)) := by
  unfold out0_4
  rw [View.canon_unit_zero zeros3]
  simp only [View.ld_unit_zero (S := S32x256x32) zeros3, View.ld_unit_zero (S := S32x256) zeros2]
  rw [stored_apply, colside_apply, rowside_apply]
  rfl

end Cert.KernelIdeal.BlockCost

end
-- ==== Proof.ArrayCost.lean ====
/-
  From one step's block to the whole result.

  The kernel runs 16 steps; step `t` reads graphs `32 t … 32 t + 31` (a block of each of the four arrays the host
  prepared: the two feature arrays reshaped to `512 × 256 × 32` and the two price arrays `c · conn` reshaped to
  `512 × 256`) and writes row `t` of a `16 × 1 × 32` array.  So entry `(t, 0, j)` of that array is the matching cost of
  graph `32 t + j`, every entry is written by exactly one step, and the host's reshape to `512` puts the cost of graph
  `b` at position `b`.  The host then divides by the converted sum of the two size vectors.
-/
import proofs.«134899_j3994319585319_1_alg».proof.Proof.Gen.KernelIdeal.Frame
import proofs.«134899_j3994319585319_1_alg».proof.Proof.BlockCost
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.ArrayCost

open Cert.KernelIdeal Cert.KernelIdeal.Gen Idealize.ShloMosaic Idealize.ShloMosaic.TcCoe Idealize.ShloMosaic.ValueIdx Cert.GraphCost
open Idealize.SL.Sem
open Idealize.ShloMosaic.Pipeline (Dat Cfg Window)

variable (m : (ℓ : Loc nD τ sig) → Buf (Elt Ideal) ℓ) (ρ : Dev nD → PrngReg)

/-! ## The arrays the region reads, and a step's blocks of them -/

abbrev feat1 (c : Dev nD) : Vec Ideal S512x256x32 .f32 := V m c (Pipeline.arrRef spec0 0)
abbrev feat2 (c : Dev nD) : Vec Ideal S512x256x32 .f32 := V m c (Pipeline.arrRef spec0 1)
abbrev price1 (c : Dev nD) : Vec Ideal S512x256 .f32 := V m c (Pipeline.arrRef spec0 2)
abbrev price2 (c : Dev nD) : Vec Ideal S512x256 .f32 := V m c (Pipeline.arrRef spec0 3)

abbrev blk0 (c : Dev nD) (t : Fin cfg0.N) : Vec Ideal S32x256x32 .f32 := iblk m c 0 t
abbrev blk1 (c : Dev nD) (t : Fin cfg0.N) : Vec Ideal S32x256x32 .f32 := iblk m c 1 t
abbrev blk2 (c : Dev nD) (t : Fin cfg0.N) : Vec Ideal S32x256 .f32 := iblk m c 2 t
abbrev blk3 (c : Dev nD) (t : Fin cfg0.N) : Vec Ideal S32x256 .f32 := iblk m c 3 t

/-- The graph that is pair `j` of step `t`. -/
def pairOf (t : Fin cfg0.N) (j : Fin 32) : Fin 512 :=
  ⟨32 * t.val + j.val, by have := lt_of_lt_of_eq t.isLt N_0; have := j.isLt; omega⟩

/-- The graph whose cost sits at an index of the `16 × 1 × 32` array. -/
def graphOf (i : S16x1x32.Idx) : Fin 512 :=
  ⟨32 * (i 0).val + (i 2).val, by have h0 : (i 0).val < 16 := (i 0).isLt; have h2 : (i 2).val < 32 := (i 2).isLt; omega⟩

/-- The matching cost of graph `b`, from the four arrays as the region finds them. -/
def gcost (c : Dev nD) (b : Fin 512) : EReal :=
  cost (Ideal.ofBits .f32 0x7F800000#32) (Ideal.ofBits .f32 0x00000000#32) (Ideal.ofBits .f32 0x40000000#32)
    (fun n k => feat1 m c (ix3 b n k)) (fun n k => feat2 m c (ix3 b n k)) (fun n => price1 m c (ix2 b n)) (fun n => price2 m c (ix2 b n))

/-- What the `16 × 1 × 32` array ends holding. -/
def G (c : Dev nD) : Vec Ideal S16x1x32 .f32 := fun i => gcost m c (graphOf i)

/-- The printed index maps over the grid: every window's block index is the step on the leading axis and zero on
    the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Step `t`'s block of a `512 × 256 × 32` array, read through the first window: graph `32 t + j` of the array. -/
theorem read_win0 (t : Fin cfg0.N) (A : Vec Ideal S512x256x32 .f32) (j : Fin 32) (n : Fin 256) (k : Fin 32) :
    ((cfg0.win 0).blk t).view.read (Elt Ideal) A (ix3 j n k) = A (ix3 (pairOf t j) n k) := by
  obtain ⟨e0, e1, e2, -⟩ := idx_facts t
  have h : ((cfg0.win 0).blk t).view.emb (ix3 j n k) = ix3 (pairOf t j) n k := by
    funext a; apply Fin.ext
    match a with
    | ⟨0, _⟩ => show win0_0.index t (0 : Fin 3) * 32 + 1 * j.val = 32 * t.val + j.val; omega
    | ⟨1, _⟩ => show win0_0.index t (1 : Fin 3) * 256 + 1 * n.val = n.val; omega
    | ⟨2, _⟩ => show win0_0.index t (2 : Fin 3) * 32 + 1 * k.val = k.val; omega
  exact congrArg A h

theorem read_win1 (t : Fin cfg0.N) (A : Vec Ideal S512x256x32 .f32) (j : Fin 32) (n : Fin 256) (k : Fin 32) :
    ((cfg0.win 1).blk t).view.read (Elt Ideal) A (ix3 j n k) = A (ix3 (pairOf t j) n k) := by
  obtain ⟨-, -, -, e0, e1, e2, -⟩ := idx_facts t
  have h : ((cfg0.win 1).blk t).view.emb (ix3 j n k) = ix3 (pairOf t j) n k := by
    funext a; apply Fin.ext
    match a with
    | ⟨0, _⟩ => show win0_1.index t (0 : Fin 3) * 32 + 1 * j.val = 32 * t.val + j.val; omega
    | ⟨1, _⟩ => show win0_1.index t (1 : Fin 3) * 256 + 1 * n.val = n.val; omega
    | ⟨2, _⟩ => show win0_1.index t (2 : Fin 3) * 32 + 1 * k.val = k.val; omega
  exact congrArg A h

/-- Step `t`'s block of a `512 × 256` array, read through the third window. -/
theorem read_win2 (t : Fin cfg0.N) (A : Vec Ideal S512x256 .f32) (j : Fin 32) (n : Fin 256) :
    ((cfg0.win 2).blk t).view.read (Elt Ideal) A (ix2 j n) = A (ix2 (pairOf t j) n) := by
  obtain ⟨-, -, -, -, -, -, e0, e1, -⟩ := idx_facts t
  have h : ((cfg0.win 2).blk t).view.emb (ix2 j n) = ix2 (pairOf t j) n := by
    funext a; apply Fin.ext
    match a with
    | ⟨0, _⟩ => show win0_2.index t (0 : Fin 2) * 32 + 1 * j.val = 32 * t.val + j.val; omega
    | ⟨1, _⟩ => show win0_2.index t (1 : Fin 2) * 256 + 1 * n.val = n.val; omega
  exact congrArg A h

theorem read_win3 (t : Fin cfg0.N) (A : Vec Ideal S512x256 .f32) (j : Fin 32) (n : Fin 256) :
    ((cfg0.win 3).blk t).view.read (Elt Ideal) A (ix2 j n) = A (ix2 (pairOf t j) n) := by
  obtain ⟨-, -, -, -, -, -, -, -, e0, e1, -⟩ := idx_facts t
  have h : ((cfg0.win 3).blk t).view.emb (ix2 j n) = ix2 (pairOf t j) n := by
    funext a; apply Fin.ext
    match a with
    | ⟨0, _⟩ => show win0_3.index t (0 : Fin 2) * 32 + 1 * j.val = 32 * t.val + j.val; omega
    | ⟨1, _⟩ => show win0_3.index t (1 : Fin 2) * 256 + 1 * n.val = n.val; omega
  exact congrArg A h

theorem blk0_apply (c : Dev nD) (t : Fin cfg0.N) (j : Fin 32) (n : Fin 256) (k : Fin 32) :
    blk0 m c t (ix3 j n k) = feat1 m c (ix3 (pairOf t j) n k) := read_win0 t (feat1 m c) j n k
theorem blk1_apply (c : Dev nD) (t : Fin cfg0.N) (j : Fin 32) (n : Fin 256) (k : Fin 32) :
    blk1 m c t (ix3 j n k) = feat2 m c (ix3 (pairOf t j) n k) := read_win1 t (feat2 m c) j n k
theorem blk2_apply (c : Dev nD) (t : Fin cfg0.N) (j : Fin 32) (n : Fin 256) :
    blk2 m c t (ix2 j n) = price1 m c (ix2 (pairOf t j) n) := read_win2 t (price1 m c) j n
theorem blk3_apply (c : Dev nD) (t : Fin cfg0.N) (j : Fin 32) (n : Fin 256) :
    blk3 m c t (ix2 j n) = price2 m c (ix2 (pairOf t j) n) := read_win3 t (price2 m c) j n

/-- A stored block at any of its indices: the cost of the pair named by the last coordinate. -/
theorem block_entry (x0 x1 : Vec Ideal S32x256x32 .f32) (x2 x3 : Vec Ideal S32x256 .f32) (y : S1x1x32.Idx) :
    out0_4 x0 x1 x2 x3 y
      = cost (Ideal.ofBits .f32 0x7F800000#32) (Ideal.ofBits .f32 0x00000000#32) (Ideal.ofBits .f32 0x40000000#32)
          (fun n k => x0 (ix3 (y 2) n k)) (fun n k => x1 (ix3 (y 2) n k)) (fun n => x2 (ix2 (y 2) n)) (fun n => x3 (ix2 (y 2) n)) := by
  have hy : y = ix3 (0 : Fin 1) (0 : Fin 1) (y 2) := funext fun a => Fin.ext (by
    match a with
    | ⟨0, _⟩ => show (y 0).val = 0; have h : (y 0).val < 1 := (y 0).isLt; omega
    | ⟨1, _⟩ => show (y 1).val = 0; have h : (y 1).val < 1 := (y 1).isLt; omega
    | ⟨2, _⟩ => rfl)
  exact (congrArg (out0_4 x0 x1 x2 x3) hy).trans (BlockCost.block_apply x0 x1 x2 x3 (y 2))

/-- WHAT STEP `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  obtain ⟨-, -, -, -, -, -, -, -, -, -, e0, e1, e2⟩ := idx_facts t
  funext y
  show out0_4 (blk0 m c t) (blk1 m c t) (blk2 m c t) (blk3 m c t) y = gcost m c (graphOf (((cfg0.win 4).blk t).view.emb y))
  refine (block_entry (blk0 m c t) (blk1 m c t) (blk2 m c t) (blk3 m c t) y).trans ?_
  have hg : graphOf (((cfg0.win 4).blk t).view.emb y) = pairOf t (y 2) := Fin.ext (by
    show 32 * (win0_4.index t (0 : Fin 3) * 1 + 1 * (y 0).val) + (win0_4.index t (2 : Fin 3) * 32 + 1 * (y 2).val) = 32 * t.val + (y 2).val
    have h0 : (y 0).val < 1 := (y 0).isLt
    omega)
  rw [hg]
  unfold gcost
  have a0 : (fun n k => blk0 m c t (ix3 (y 2) n k)) = fun n k => feat1 m c (ix3 (pairOf t (y 2)) n k) :=
    funext fun n => funext fun k => blk0_apply m c t (y 2) n k
  have a1 : (fun n k => blk1 m c t (ix3 (y 2) n k)) = fun n k => feat2 m c (ix3 (pairOf t (y 2)) n k) :=
    funext fun n => funext fun k => blk1_apply m c t (y 2) n k
  have a2 : (fun n => blk2 m c t (ix2 (y 2) n)) = fun n => price1 m c (ix2 (pairOf t (y 2)) n) :=
    funext fun n => blk2_apply m c t (y 2) n
  have a3 : (fun n => blk3 m c t (ix2 (y 2) n)) = fun n => price2 m c (ix2 (pairOf t (y 2)) n) :=
    funext fun n => blk3_apply m c t (y 2) n
  rw [a0, a1, a2, a3]

/-- An index of the array is in step `t`'s block iff each coordinate is in the block's range on its axis. -/
theorem mem_blk (t : Fin cfg0.N) (i : S16x1x32.Idx) :
    i ∈ ((cfg0.win 4).blk t).view.set ↔ ∀ a : Fin 3, win0_4.index t a * S1x1x32.size a ≤ (i a).val ∧ (i a).val < win0_4.index t a * S1x1x32.size a + S1x1x32.size a := by
  show i ∈ ((View.whole main_v21).slice (win0_4.rect t)).set ↔ _
  rw [View.set_slice_whole, Rect.mem_set_unit]
  exact Iff.rfl

/-- Every index of the array is in the block of the step its leading coordinate names. -/
theorem cover (i : S16x1x32.Idx) :
    ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 32 := (i 2).isLt
  refine ⟨⟨(i 0).val, by have := N_0; show (i 0).val < grid0.N; omega⟩, flush0_4 _, ?_⟩
  obtain ⟨-, -, -, -, -, -, -, -, -, -, e0, e1, e2⟩ := idx_facts ⟨(i 0).val, by have := N_0; show (i 0).val < grid0.N; omega⟩
  rw [mem_blk]
  intro a
  match a with
  | ⟨0, _⟩ => show win0_4.index _ (0 : Fin 3) * 1 ≤ (i 0).val ∧ (i 0).val < win0_4.index _ (0 : Fin 3) * 1 + 1; simp only [] at e0; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 32 ≤ (i 2).val ∧ (i 2).val < win0_4.index _ (2 : Fin 3) * 32 + 32; omega

/-- THE ARRAY after the run. -/
theorem final (c : Dev nD) : (dats m 0 c).arrAt 4 cfg0.N = G m c :=
  (dats m 0 c).arrAt_eq_of_cover 4 (G m c) (fun t _ => flushed_eq m c t) cover

/-! ## The host lines after the region -/

theorem result_eq (c : Dev nD) :
    Pipeline.afterTail₀ cfgs (dats m) 0 (V0 m) [hostOps1] c main_v25
      = Host.divf (F := Ideal) (shapeCast S512 (G m c) shapeCasts_S16x1x32_S512)
          (sitofp .f32 (addi (m ((c.tc : Thread nD τ).loc main_arg4)) (m ((c.tc : Thread nD τ).loc main_arg5)))) := by
  unfold Pipeline.afterTail₀
  show StableHlo.after hostOps1 _ (Proc.devRef .tc main_v25) = _
  after_results
  have hG : Pipeline.withArrays (cfgs 0).spec c (V0 m c) (fun w => (dats m 0 c).arrAt w (cfgs 0).N) (Proc.devRef .tc main_v21) = G m c :=
    (Pipeline.withArrays_arr spec0 launch0.win.arr_inj c _ _ 4).trans (final m c)
  have h4 : Pipeline.withArrays (cfgs 0).spec c (V0 m c) (fun w => (dats m 0 c).arrAt w (cfgs 0).N) (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.devRef .tc main_arg5) = m ((c.tc : Thread nD τ).loc main_arg5) :=
    (Pipeline.withArrays_of_ne _ c (V0 m c) _ main_arg5 (by exact (by decide : ∀ w, Pipeline.arrRef spec0 w ≠ main_arg5))).trans (V_main_arg5 m c)
  rw [hG, h4, h5]
  rfl

/-! ## The run, read -/

/-- Every weakly fair execution of the kernel program ends with the result at the quotient of the reshaped cost array
    by the converted size sum, and the arguments unchanged. -/
theorem run : θ_run defs (onTc (τ := τ) (main (F := Ideal))) ⟨m, fun _ => 0, ρ⟩ (fun r => ∀ c : Dev nD,
      r.2.mem ((c.tc : Thread nD τ).loc main_v25)
        = Host.divf (F := Ideal) (shapeCast S512 (G m c) shapeCasts_S16x1x32_S512)
            (sitofp .f32 (addi (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ArrayCost

end
-- ==== Proof.ArgCost.lean ====
/-
  The kernel's result in terms of the program's arguments.

  Before the region the host reshapes the two feature arrays to `512 × 256 × 32` and forms the two price arrays
  `c · conn`, reshaped to `512 × 256`, where `c` is the one entry of the cost argument and `conn` is one plus the
  scatter-added count of list entries pointing at each node.  So graph `b`'s data are rows `256 b … 256 b + 255` of the
  feature arguments and the same entries of `c · conn`; the counts themselves are left as the program computes them.
  Reading the final reshape at position `b` gives the matching cost of graph `b` of those data.
-/
import proofs.«134899_j3994319585319_1_alg».proof.Proof.ArrayCost

set_option maxRecDepth 16384

noncomputable section

namespace Cert.KernelIdeal.ArgCost

open Cert.KernelIdeal Cert.KernelIdeal.Gen Cert.KernelIdeal.ArrayCost Idealize.ShloMosaic Idealize.ShloMosaic.TcCoe Idealize.ShloMosaic.ValueIdx Cert.GraphCost
open Idealize.SL.Sem

variable (m : (ℓ : Loc nD τ sig) → Buf (Elt Ideal) ℓ)

/-- The scalar price factor `c`. -/
def scale (c : Dev nD) : FVec Ideal S_ .f32 := shapeCast S_ (m ((c.tc : Thread nD τ).loc main_arg6)) shapeCasts_S1_S_

/-- One plus the number of entries of an index list pointing at each node, as the program computes it. -/
def conn (src : IVec S1048576 32) : FVec Ideal S131072 .f32 :=
  addf
    (Host.scatterAdd scatter_S131072_S1048576x1_S1048576_n_0_0_1
      (broadcastInDim S131072 ![] bcast_S_S131072 (constant (F := Ideal) S_ .f32 0x00000000#32))
      (broadcastInDim S1048576x1 ![0] bcast_S1048576_S1048576x1_0 src)
      (broadcastInDim S1048576 ![] bcast_S_S1048576 (constant (F := Ideal) S_ .f32 0x3F800000#32)))
    (broadcastInDim S131072 ![] bcast_S_S131072 (constant (F := Ideal) S_ .f32 0x3F800000#32))

theorem feat1_eq (c : Dev nD) :
    feat1 m c = shapeCast S512x256x32 (m ((c.tc : Thread nD τ).loc main_arg0)) shapeCasts_S131072x32_S512x256x32 := by
  show StableHlo.after hostOps0 (fun b => m (c, b)) (Proc.devRef .tc main_v19) = _
  after_results
  rfl

theorem feat2_eq (c : Dev nD) :
    feat2 m c = shapeCast S512x256x32 (m ((c.tc : Thread nD τ).loc main_arg1)) shapeCasts_S131072x32_S512x256x32 := by
  show StableHlo.after hostOps0 (fun b => m (c, b)) (Proc.devRef .tc main_v20) = _
  after_results
  rfl

theorem price1_eq (c : Dev nD) :
    price1 m c = shapeCast S512x256 (mulf (broadcastInDim S131072 ![] bcast_S_S131072 (scale m c)) (conn (m ((c.tc : Thread nD τ).loc main_arg2))))
      shapeCasts_S131072_S512x256 := by
  show StableHlo.after hostOps0 (fun b => m (c, b)) (Proc.devRef .tc main_v15) = _
  after_results
  rfl

theorem price2_eq (c : Dev nD) :
    price2 m c = shapeCast S512x256 (mulf (broadcastInDim S131072 ![] bcast_S_S131072 (scale m c)) (conn (m ((c.tc : Thread nD τ).loc main_arg3))))
      shapeCasts_S131072_S512x256 := by
  show StableHlo.after hostOps0 (fun b => m (c, b)) (Proc.devRef .tc main_v18) = _
  after_results
  rfl

/-- A reshaped feature array at graph `b`, node `n`, feature `k`: row `256 b + n` of the argument. -/
theorem reshaped_feat (x : FVec Ideal S131072x32 .f32) (h : S131072x32.ShapeCasts S512x256x32) (b : Fin 512) (n : Fin 256) (k : Fin 32) :
    shapeCast S512x256x32 x h (ix3 b n k) = x (ix2 (node b n) k) :=
  shapeCast_apply x h (ix3 b n k) (ix2 (node b n) k) (by
    rw [Shape.rowMajor_val_two, Shape.rowMajor_val_three]
    show (b.val * 256 + n.val) * 32 + k.val = (b.val * 256 + n.val) * 32 + k.val; rfl)

/-- A reshaped price array at graph `b`, node `n`: `c` times the count of node `256 b + n`. -/
theorem reshaped_price (s : FVec Ideal S_ .f32) (v : FVec Ideal S131072 .f32) (h : S131072.ShapeCasts S512x256)
    (hb : S_.BroadcastsInDim S131072 (![] : Fin 0 → Fin S131072.rank)) (b : Fin 512) (n : Fin 256) :
    shapeCast S512x256 (mulf (broadcastInDim S131072 ![] hb s) v) h (ix2 b n) = s ix0 * v (ix1 (node b n)) := by
  refine (shapeCast_apply _ h (ix2 b n) (ix1 (node b n)) (by
    rw [Shape.rowMajor_val_one, Shape.rowMajor_val_two]
    show b.val * 256 + n.val = b.val * 256 + n.val; rfl)).trans ?_
  rw [mulf_apply]
  exact congrArg (· * v (ix1 (node b n))) (broadcastInDim_apply _ hb s (ix1 (node b n)) ix0 (fun a => a.elim0))

/-- The matching cost of graph `b` from the arrays the region finds is the matching cost of its rows of the arguments. -/
theorem gcost_eq (c : Dev nD) (b : Fin 512) :
    gcost m c b
      = cost (Ideal.ofBits .f32 0x7F800000#32) (Ideal.ofBits .f32 0x00000000#32) (Ideal.ofBits .f32 0x40000000#32)
          (fun n k => m ((c.tc : Thread nD τ).loc main_arg0) (ix2 (node b n) k))
          (fun n k => m ((c.tc : Thread nD τ).loc main_arg1) (ix2 (node b n) k))
          (fun n => scale m c ix0 * conn (m ((c.tc : Thread nD τ).loc main_arg2)) (ix1 (node b n)))
          (fun n => scale m c ix0 * conn (m ((c.tc : Thread nD τ).loc main_arg3)) (ix1 (node b n))) := by
  unfold gcost
  have a0 : (fun (n : Fin 256) (k : Fin 32) => feat1 m c (ix3 b n k)) = fun n k => m ((c.tc : Thread nD τ).loc main_arg0) (ix2 (node b n) k) :=
    funext fun n => funext fun k => (congrFun (feat1_eq m c) (ix3 b n k)).trans (reshaped_feat _ _ b n k)
  have a1 : (fun (n : Fin 256) (k : Fin 32) => feat2 m c (ix3 b n k)) = fun n k => m ((c.tc : Thread nD τ).loc main_arg1) (ix2 (node b n) k) :=
    funext fun n => funext fun k => (congrFun (feat2_eq m c) (ix3 b n k)).trans (reshaped_feat _ _ b n k)
  have a2 : (fun (n : Fin 256) => price1 m c (ix2 b n)) = fun n => scale m c ix0 * conn (m ((c.tc : Thread nD τ).loc main_arg2)) (ix1 (node b n)) :=
    funext fun n => (congrFun (price1_eq m c) (ix2 b n)).trans (reshaped_price _ _ _ _ b n)
  have a3 : (fun (n : Fin 256) => price2 m c (ix2 b n)) = fun n => scale m c ix0 * conn (m ((c.tc : Thread nD τ).loc main_arg3)) (ix1 (node b n)) :=
    funext fun n => (congrFun (price2_eq m c) (ix2 b n)).trans (reshaped_price _ _ _ _ b n)
  rw [a0, a1, a2, a3]

/-- THE RESULT BEFORE THE DIVISION, at position `b`: the matching cost of graph `b`. -/
theorem total_apply (c : Dev nD) (b : Fin 512) :
    shapeCast S512 (G m c) shapeCasts_S16x1x32_S512 (ix1 b)
      = cost (Ideal.ofBits .f32 0x7F800000#32) (Ideal.ofBits .f32 0x00000000#32) (Ideal.ofBits .f32 0x40000000#32)
          (fun n k => m ((c.tc : Thread nD τ).loc main_arg0) (ix2 (node b n) k))
          (fun n k => m ((c.tc : Thread nD τ).loc main_arg1) (ix2 (node b n) k))
          (fun n => scale m c ix0 * conn (m ((c.tc : Thread nD τ).loc main_arg2)) (ix1 (node b n)))
          (fun n => scale m c ix0 * conn (m ((c.tc : Thread nD τ).loc main_arg3)) (ix1 (node b n))) := by
  have hb : b.val < 512 := b.isLt
  refine (shapeCast_apply (G m c) shapeCasts_S16x1x32_S512 (ix1 b)
    (ix3 (⟨b.val / 32, by omega⟩ : Fin 16) (0 : Fin 1) (⟨b.val % 32, by omega⟩ : Fin 32)) (by
      rw [Shape.rowMajor_val_one, Shape.rowMajor_val_three]
      show (b.val / 32 * 1 + 0) * 32 + b.val % 32 = b.val; omega)).trans ?_
  have hg : graphOf (ix3 (⟨b.val / 32, by omega⟩ : Fin 16) (0 : Fin 1) (⟨b.val % 32, by omega⟩ : Fin 32)) = b :=
    Fin.ext (by show 32 * (b.val / 32) + b.val % 32 = b.val; omega)
  show gcost m c (graphOf _) = _
  rw [hg]
  exact gcost_eq m c b

end Cert.KernelIdeal.ArgCost

end
-- ==== Proof.RefCost.lean ====
/-
  The reference's value for one pair of graphs, as the matching cost of the pair's data.

  The reference builds, for graph `b`, the 257 × 257 table whose top-left 256 × 256 corner holds the squared
  distances `(|X n|² + |Y m|²) − 2 · ⟨X n, Y m⟩`, whose last column holds the deletion prices `c · conn1`, whose
  last row holds the insertion prices `c · conn2` and whose corner is 0; its value is the sum of the table's column
  minima plus the sum of its row minima.  Reading the program one operation at a time gives the four blocks of the
  table; the identity of `Cert.Bordered` then turns the sums over the padded table into `Cert.GraphCost.cost`.
  The scalar `c` and the two connection counts are left as the program computes them.
-/
import proofs.«134899_j3994319585319_1_alg».proof.Proof.Gen.ReferenceIdeal.Read
import proofs.«134899_j3994319585319_1_alg».proof.Proof.GraphCost
import proofs.«134899_j3994319585319_1_alg».proof.Proof.LibAxisFolds
import Idealize.ShloMosaic.Lib.ValueIdx
import Idealize.ShloMosaic.Lib.Pipeline.Value
import Idealize.ShloMosaic.PureOps.Ideal.Laws
noncomputable section
namespace Cert.ReferenceIdeal.RefCost
open Cert.ReferenceIdeal Cert.ReferenceIdeal.Gen Cert.ReferenceIdeal.Read Idealize.ShloMosaic Idealize.ShloMosaic.ValueIdx Cert.GraphCost

section

variable (x0 x1 : (⟨S131072x32, .f32⟩ : BufTy).Contents (Elt Ideal)) (x2 x3 : (⟨S1048576, .i32⟩ : BufTy).Contents (Elt Ideal))
  (x6 : (⟨S1, .f32⟩ : BufTy).Contents (Elt Ideal))

/-- The padded table of graph `b`: the 256 × 256 distances with one extra column and one extra row. -/
def table (b : Fin 512) (n m : Fin 257) : EReal :=
  val_main_v39 (F := Ideal) x0 x1 x2 x3 x6 (ix3 b n m)

/-- A column minimum of the padded table. -/
theorem colMin_apply (b : Fin 512) (m : Fin 257) :
    val_main_v40 (F := Ideal) x0 x1 x2 x3 x6 (ix2 b m)
      = Finset.univ.fold min (Ideal.ofBits .f32 0x7F800000#32) (fun n => table x0 x1 x2 x3 x6 b n m) := by
  unfold val_main_v40
  exact Cert.LibAxisFolds.hostReduce_min_single _ _ reducesTo_S512x257x257_S512x257_d1 (by decide) h_S_ (ix2 b m) 257 rfl
    (fun n => table x0 x1 x2 x3 x6 b n m)
    (fun k => congrArg (val_main_v39 (F := Ideal) x0 x1 x2 x3 x6)
      (funext fun a => Fin.ext (by match a with | ⟨0, _⟩ => rfl | ⟨1, _⟩ => rfl | ⟨2, _⟩ => rfl)))

/-- A row minimum of the padded table. -/
theorem rowMin_apply (b : Fin 512) (n : Fin 257) :
    val_main_v42 (F := Ideal) x0 x1 x2 x3 x6 (ix2 b n)
      = Finset.univ.fold min (Ideal.ofBits .f32 0x7F800000#32) (fun m => table x0 x1 x2 x3 x6 b n m) := by
  unfold val_main_v42
  exact Cert.LibAxisFolds.hostReduce_min_single _ _ reducesTo_S512x257x257_S512x257_d2 (by decide) h_S_ (ix2 b n) 257 rfl
    (fun m => table x0 x1 x2 x3 x6 b n m)
    (fun k => congrArg (val_main_v39 (F := Ideal) x0 x1 x2 x3 x6)
      (funext fun a => Fin.ext (by match a with | ⟨0, _⟩ => rfl | ⟨1, _⟩ => rfl | ⟨2, _⟩ => rfl)))

/-- The value is the sum of the column minima plus the sum of the row minima of the padded table. -/
theorem total_eq_bordered (b : Fin 512) :
    val_main_v46 (F := Ideal) x0 x1 x2 x3 x6 (ix1 b)
      = Cert.Bordered.borderedValue (N := 256) min (Ideal.ofBits .f32 0x7F800000#32) (table x0 x1 x2 x3 x6 b) := by
  rw [val_main_v46_apply, Ideal.addf_def, val_main_v41_apply, val_main_v43_apply, val_main_cst_10_apply,
    val_main_cst_12_apply, Ideal.ofBits_def, Ideal.ofBits_zero_f32, zero_add, zero_add]
  unfold Cert.Bordered.borderedValue
  refine congrArg₂ (· + ·) (Finset.sum_congr rfl fun m _ => ?_) (Finset.sum_congr rfl fun n _ => ?_)
  · rw [← colMin_apply]
    exact congrArg _ (funext fun a => Fin.ext (by match a with | ⟨0, _⟩ => rfl | ⟨1, _⟩ => rfl))
  · rw [← rowMin_apply]
    exact congrArg _ (funext fun a => Fin.ext (by match a with | ⟨0, _⟩ => rfl | ⟨1, _⟩ => rfl))

/-- Above its last row the padded table is the distance table with the extra column. -/
theorem table_top (b : Fin 512) (n : Fin 256) (m : Fin 257) :
    table x0 x1 x2 x3 x6 b n.castSucc m = val_main_v33 (F := Ideal) x0 x1 x2 x6 (ix3 b n m) := by
  unfold table val_main_v39
  exact concatenate_pair_apply_left 1 _ _ concatenates_S512x256x257_S512x1x257_S512x257x257_d1 (ix3 b n.castSucc m) rfl
    (ix3 b n m) (fun c => by match c with | ⟨0, _⟩ => rfl | ⟨1, _⟩ => rfl | ⟨2, _⟩ => rfl)

/-- The last row of the padded table is the extra row. -/
theorem table_bottom (b : Fin 512) (m : Fin 257) :
    table x0 x1 x2 x3 x6 b (Fin.last 256) m = val_main_v37 (F := Ideal) x3 x6 (ix2 b m) := by
  unfold table val_main_v39
  rw [concatenate_pair_apply_right 1 _ _ concatenates_S512x256x257_S512x1x257_S512x257x257_d1 (ix3 b (Fin.last 256) m) rfl rfl
    (ix3 b 0 m) (fun c hc => by match c, hc with | ⟨0, _⟩, _ => rfl | ⟨1, _⟩, hc => exact absurd rfl hc | ⟨2, _⟩, _ => rfl) rfl,
    val_main_v38_apply]
  exact congrArg _ (funext fun a => Fin.ext (by match a with | ⟨0, _⟩ => rfl | ⟨1, _⟩ => rfl))

/-- Left of its last column the distance table with the extra column is the distance table. -/
theorem wide_left (b : Fin 512) (n m : Fin 256) :
    val_main_v33 (F := Ideal) x0 x1 x2 x6 (ix3 b n m.castSucc) = val_main_v29 (F := Ideal) x0 x1 (ix3 b n m) := by
  unfold val_main_v33
  exact concatenate_pair_apply_left 2 _ _ concatenates_S512x256x256_S512x256x1_S512x256x257_d2 (ix3 b n m.castSucc) rfl
    (ix3 b n m) (fun c => by match c with | ⟨0, _⟩ => rfl | ⟨1, _⟩ => rfl | ⟨2, _⟩ => rfl)

/-- Its last column is the extra column. -/
theorem wide_right (b : Fin 512) (n : Fin 256) :
    val_main_v33 (F := Ideal) x0 x1 x2 x6 (ix3 b n (Fin.last 256)) = val_main_v31 (F := Ideal) x2 x6 (ix2 b n) := by
  unfold val_main_v33
  rw [concatenate_pair_apply_right 2 _ _ concatenates_S512x256x256_S512x256x1_S512x256x257_d2 (ix3 b n (Fin.last 256)) rfl rfl
    (ix3 b n 0) (fun c hc => by match c, hc with | ⟨0, _⟩, _ => rfl | ⟨1, _⟩, _ => rfl | ⟨2, _⟩, hc => exact absurd rfl hc) rfl,
    val_main_v32_apply]
  exact congrArg _ (funext fun a => Fin.ext (by match a with | ⟨0, _⟩ => rfl | ⟨1, _⟩ => rfl))

/-- The extra row, left of the corner. -/
theorem row_left (b : Fin 512) (m : Fin 256) :
    val_main_v37 (F := Ideal) x3 x6 (ix2 b m.castSucc) = val_main_v35 (F := Ideal) x3 x6 (ix2 b m) := by
  unfold val_main_v37
  exact concatenate_pair_apply_left 1 _ _ concatenates_S512x256_S512x1_S512x257_d1 (ix2 b m.castSucc) rfl
    (ix2 b m) (fun c => by match c with | ⟨0, _⟩ => rfl | ⟨1, _⟩ => rfl)

/-- The corner. -/
theorem row_right (b : Fin 512) :
    val_main_v37 (F := Ideal) x3 x6 (ix2 b (Fin.last 256)) = Ideal.ofBits .f32 0x00000000#32 := by
  unfold val_main_v37
  rw [concatenate_pair_apply_right 1 _ _ concatenates_S512x256_S512x1_S512x257_d1 (ix2 b (Fin.last 256)) rfl rfl
    (ix2 b 0) (fun c hc => by match c, hc with | ⟨0, _⟩, _ => rfl | ⟨1, _⟩, hc => exact absurd rfl hc) rfl,
    val_main_v36_apply, val_main_cst_8_apply, Ideal.ofBits_def]

/-- The first feature array, reshaped per graph, at graph `b`, node `n`, feature `k`. -/
theorem feat1_apply (b : Fin 512) (n : Fin 256) (k : Fin 32) :
    val_main_v13 (F := Ideal) x0 (ix3 b n k) = x0 (ix2 (node b n) k) := by
  rw [val_main_v13_apply]
  exact congrArg x0 (funext fun a => Fin.ext (by
    match a with
    | ⟨0, _⟩ => show ((b.val * 256 + n.val) * 32 + k.val) / 32 = b.val * 256 + n.val; have := k.isLt; omega
    | ⟨1, _⟩ => show ((b.val * 256 + n.val) * 32 + k.val) % 32 = k.val; have := k.isLt; omega))

/-- The second feature array, likewise. -/
theorem feat2_apply (b : Fin 512) (n : Fin 256) (k : Fin 32) :
    val_main_v14 (F := Ideal) x1 (ix3 b n k) = x1 (ix2 (node b n) k) := by
  rw [val_main_v14_apply]
  exact congrArg x1 (funext fun a => Fin.ext (by
    match a with
    | ⟨0, _⟩ => show ((b.val * 256 + n.val) * 32 + k.val) / 32 = b.val * 256 + n.val; have := k.isLt; omega
    | ⟨1, _⟩ => show ((b.val * 256 + n.val) * 32 + k.val) % 32 = k.val; have := k.isLt; omega))

/-- The squared norm of a node of the first graph. -/
theorem sqNorm1_apply (b : Fin 512) (n : Fin 256) :
    val_main_v18 (F := Ideal) x0 (ix2 b n) = ∑ k : Fin 32, x0 (ix2 (node b n) k) * x0 (ix2 (node b n) k) := by
  rw [val_main_v18_apply, val_main_cst_5_apply, Ideal.ofBits_def, Ideal.ofBits_zero_f32, zero_add]
  refine Finset.sum_congr rfl fun k _ => ?_
  have e : idx_main_v18 (ix2 b n) k = ix3 b n k :=
    funext fun a => Fin.ext (by match a with | ⟨0, _⟩ => rfl | ⟨1, _⟩ => rfl | ⟨2, _⟩ => rfl)
  rw [e, val_main_v17_apply, Ideal.mulf_def, feat1_apply]

/-- The squared norm of a node of the second graph. -/
theorem sqNorm2_apply (b : Fin 512) (m : Fin 256) :
    val_main_v20 (F := Ideal) x1 (ix2 b m) = ∑ k : Fin 32, x1 (ix2 (node b m) k) * x1 (ix2 (node b m) k) := by
  rw [val_main_v20_apply, val_main_cst_6_apply, Ideal.ofBits_def, Ideal.ofBits_zero_f32, zero_add]
  refine Finset.sum_congr rfl fun k _ => ?_
  have e : idx_main_v20 (ix2 b m) k = ix3 b m k :=
    funext fun a => Fin.ext (by match a with | ⟨0, _⟩ => rfl | ⟨1, _⟩ => rfl | ⟨2, _⟩ => rfl)
  rw [e, val_main_v19_apply, Ideal.mulf_def, feat2_apply]

/-- The inner product of a node of the first graph with a node of the second. -/
theorem inner_apply (b : Fin 512) (n m : Fin 256) :
    val_main_v26 (F := Ideal) x0 x1 (ix3 b n m) = ∑ k : Fin 32, x0 (ix2 (node b n) k) * x1 (ix2 (node b m) k) := by
  rw [val_main_v26_apply]
  refine Finset.sum_congr rfl fun k _ => ?_
  have el : lidx_main_v26 (ix3 b n m) k = ix3 b n k :=
    funext fun a => Fin.ext (by match a with | ⟨0, _⟩ => rfl | ⟨1, _⟩ => rfl | ⟨2, _⟩ => rfl)
  have er : ridx_main_v26 (ix3 b n m) k = ix3 b m k :=
    funext fun a => Fin.ext (by match a with | ⟨0, _⟩ => rfl | ⟨1, _⟩ => rfl | ⟨2, _⟩ => rfl)
  rw [el, er, feat1_apply, feat2_apply]

/-- An entry of the distance table. -/
theorem dist_apply (b : Fin 512) (n m : Fin 256) :
    val_main_v29 (F := Ideal) x0 x1 (ix3 b n m)
      = sqDist (Ideal.ofBits .f32 0x40000000#32) (fun n k => x0 (ix2 (node b n) k)) (fun n k => x1 (ix2 (node b n) k)) n m := by
  have e1 : idx_main_v21 (idx_main_v23 (ix3 b n m)) = ix2 b n :=
    funext fun a => Fin.ext (by match a with | ⟨0, _⟩ => rfl | ⟨1, _⟩ => rfl)
  have e2 : idx_main_v22 (idx_main_v24 (ix3 b n m)) = ix2 b m :=
    funext fun a => Fin.ext (by match a with | ⟨0, _⟩ => rfl | ⟨1, _⟩ => rfl)
  rw [val_main_v29_apply, Ideal.subf_def, val_main_v25_apply, Ideal.addf_def, val_main_v28_apply, Ideal.mulf_def,
    val_main_v23_apply, val_main_v21_apply, e1, val_main_v24_apply, val_main_v22_apply, e2, val_main_v27_apply,
    val_main_cst_7_apply, Ideal.ofBits_def, sqNorm1_apply, sqNorm2_apply, inner_apply]
  rfl

/-- An entry of the extra column: the price of deleting a node of the first graph. -/
theorem price1_apply (b : Fin 512) (n : Fin 256) :
    val_main_v31 (F := Ideal) x2 x6 (ix2 b n)
      = val_main_v12 (F := Ideal) x6 ix0 * val_main_v5 (F := Ideal) x2 (ix1 (node b n)) := by
  have e0 : idx_main_v30 (ix2 b n) = ix0 := funext fun a => a.elim0
  have e1 : idx_main_v15 (ix2 b n) = ix1 (node b n) := funext fun a => Fin.ext (by match a with | ⟨0, _⟩ => rfl)
  rw [val_main_v31_apply, Ideal.mulf_def, val_main_v30_apply, e0, val_main_v15_apply, e1]

/-- An entry of the extra row: the price of inserting a node of the second graph. -/
theorem price2_apply (b : Fin 512) (m : Fin 256) :
    val_main_v35 (F := Ideal) x3 x6 (ix2 b m)
      = val_main_v12 (F := Ideal) x6 ix0 * val_main_v11 (F := Ideal) x3 (ix1 (node b m)) := by
  have e0 : idx_main_v34 (ix2 b m) = ix0 := funext fun a => a.elim0
  have e1 : idx_main_v16 (ix2 b m) = ix1 (node b m) := funext fun a => Fin.ext (by match a with | ⟨0, _⟩ => rfl)
  rw [val_main_v35_apply, Ideal.mulf_def, val_main_v34_apply, e0, val_main_v16_apply, e1]

end

theorem total_apply (x0 x1 : (⟨S131072x32, .f32⟩ : BufTy).Contents (Elt Ideal)) (x2 x3 : (⟨S1048576, .i32⟩ : BufTy).Contents (Elt Ideal))
    (x6 : (⟨S1, .f32⟩ : BufTy).Contents (Elt Ideal)) (b : Fin 512) :
    val_main_v46 (F := Ideal) x0 x1 x2 x3 x6 (ix1 b)
      = cost (Ideal.ofBits .f32 0x7F800000#32) (Ideal.ofBits .f32 0x00000000#32) (Ideal.ofBits .f32 0x40000000#32)
          (fun n k => x0 (ix2 (node b n) k)) (fun n k => x1 (ix2 (node b n) k))
          (fun n => val_main_v12 (F := Ideal) x6 ix0 * val_main_v5 (F := Ideal) x2 (ix1 (node b n)))
          (fun n => val_main_v12 (F := Ideal) x6 ix0 * val_main_v11 (F := Ideal) x3 (ix1 (node b n))) := by
  rw [total_eq_bordered]
  unfold cost
  exact Cert.Bordered.bordered_eq_split min _ _ (table x0 x1 x2 x3 x6 b) _ _ _
    (fun n m => by rw [table_top, wide_left, dist_apply])
    (fun n => by rw [table_top, wide_right, price1_apply])
    (fun m => by rw [table_bottom, row_left, price2_apply])
    (by rw [table_bottom, row_right])

end Cert.ReferenceIdeal.RefCost
end
-- ==== Proof.lean ====
/-
  The soft Hausdorff-style matching cost of 512 pairs of graphs: the tiled kernel against the padded-table reference.

  For each pair, with node features `X, Y` (256 nodes, 32 features) and insertion/deletion prices `P = c · conn1`,
  `Q = c · conn2`, the reference pads the 256 × 256 table of squared distances with `P` as an extra column, `Q` as an
  extra row and 0 in the corner, and returns (sum of column minima + sum of row minima) / (size1 + size2).  The kernel
  never builds the padded table: per step it handles 32 pairs, takes the column and row minima of the unpadded table,
  meets them with the prices, sums, and adds the smaller of the cheapest price and 0.  The two agree because a fold of
  `min` over 257 entries is `min` of the last entry with the fold over the first 256, and a sum over 257 terms is
  the sum over the first 256 plus the last (`Cert.Bordered`): only commutativity and associativity of `min` and `+`
  are used, so the equality holds on all extended reals and the finiteness precondition is never opened.  The squared
  distances are the same formula on both sides (the kernel's change to a 16-bit format before its matrix product is the
  identity on extended reals), the prices are the same host computation in both programs (the scatter-added counts are
  never evaluated), and both programs divide by the same converted sum of the size vectors.

  The kernel side is read off its frame run: one step's stored block (`BlockCost`), the array after all steps and the
  host lines around the region (`ArrayCost`, `ArgCost`).  The reference side is read one operation at a time from
  its run (`RefCost`).  Both reach `Cert.GraphCost.cost` of graph `b`'s rows of the arguments.
-/
import proofs.«134899_j3994319585319_1_alg».proof.Defs
import proofs.«134899_j3994319585319_1_alg».proof.Proof.Gen.Kernel
import proofs.«134899_j3994319585319_1_alg».proof.Proof.Gen.Kernel.Skeleton
import proofs.«134899_j3994319585319_1_alg».proof.Proof.Gen.Kernel.Launch
import proofs.«134899_j3994319585319_1_alg».proof.Proof.Gen.Kernel.Points
import proofs.«134899_j3994319585319_1_alg».proof.Proof.Gen.Kernel.Frame
import proofs.«134899_j3994319585319_1_alg».proof.Proof.Gen.KernelIdeal
import proofs.«134899_j3994319585319_1_alg».proof.Proof.Gen.KernelIdeal.Skeleton
import proofs.«134899_j3994319585319_1_alg».proof.Proof.Gen.KernelIdeal.Launch
import proofs.«134899_j3994319585319_1_alg».proof.Proof.Gen.KernelIdeal.Points
import proofs.«134899_j3994319585319_1_alg».proof.Proof.Gen.KernelIdeal.Frame
import proofs.«134899_j3994319585319_1_alg».proof.Proof.Gen.ReferenceIdeal
import proofs.«134899_j3994319585319_1_alg».proof.Proof.Gen.Pre_finite_inputs
import proofs.«134899_j3994319585319_1_alg».proof.Proof.Gen.ReferenceIdeal.Run
import proofs.«134899_j3994319585319_1_alg».proof.Proof.Gen.ReferenceIdeal.Read
import proofs.«134899_j3994319585319_1_alg».proof.Proof.ArgCost
import proofs.«134899_j3994319585319_1_alg».proof.Proof.RefCost
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two programs compute the prices the same way -/

/-- One plus the scatter-added counts: the kernel program's host lines and the reference's are the same operations. -/
theorem conn1_eq (src : IVec Cert.KernelIdeal.S1048576 32) :
    Cert.KernelIdeal.ArgCost.conn src = Cert.ReferenceIdeal.Read.val_main_v5 (F := Ideal) src := rfl

theorem conn2_eq (src : IVec Cert.KernelIdeal.S1048576 32) :
    Cert.KernelIdeal.ArgCost.conn src = Cert.ReferenceIdeal.Read.val_main_v11 (F := Ideal) src := rfl

/-! ## The results agree -/

/-- The reference's result, at the kernel's arguments, is the kernel's: position by position both are the matching
    cost of that graph's rows of the arguments, divided by the same converted size sum. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v47 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Host.divf (F := Ideal) (shapeCast Cert.KernelIdeal.S512 (Cert.KernelIdeal.ArrayCost.G m c) Cert.KernelIdeal.Gen.shapeCasts_S16x1x32_S512)
          (sitofp .f32 (addi (m ((c.tc : Thread Cert.KernelIdeal.nD Cert.KernelIdeal.τ).loc Cert.KernelIdeal.main_arg4))
            (m ((c.tc : Thread Cert.KernelIdeal.nD Cert.KernelIdeal.τ).loc Cert.KernelIdeal.main_arg5)))) := by
  unfold Cert.ReferenceIdeal.Read.val_main_v47 Cert.ReferenceIdeal.Read.val_main_v45 Cert.ReferenceIdeal.Read.val_main_v44
  refine congrArg (fun v => Host.divf (F := Ideal) v _) ?_
  funext i
  obtain ⟨b, rfl⟩ : ∃ b : Fin 512, i = ix1 b := ⟨i 0, eq_ix1 i⟩
  rw [Cert.ReferenceIdeal.RefCost.total_apply]
  refine Eq.trans ?_ (Cert.KernelIdeal.ArgCost.total_apply m c b).symm
  rw [← conn1_eq, ← conn2_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨_, Cert.KernelIdeal.ArrayCost.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v47_eq, h0, h1, h2, h3, h4, h5, h6]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
